-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : IVec S2x500000 32) (main_arg3 : IVec S2x500000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S5000x128 : Shape := ⟨2, ![5000, 128]⟩

abbrev nBuf : Space → Nat
  | .hbm => 49
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x500000, .i32⟩
  | .hbm, ⟨3, _⟩ => ⟨S2x500000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S50000x128, .bf16⟩
  | .hbm, ⟨19, _⟩ => ⟨S1x500000, .i32⟩
  | .hbm, ⟨20, _⟩ => ⟨S500000, .i32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .bf16⟩
  | .hbm, ⟨32, _⟩ => ⟨S500000x128, .f32⟩
  | .hbm, ⟨33, _⟩ => ⟨S_, .f32⟩
  | .hbm, ⟨34, _⟩ => ⟨S50000x128, .f32⟩
  | .hbm, ⟨35, _⟩ => ⟨S500000x1, .i32⟩
  | .hbm, ⟨36, _⟩ => ⟨S50000x128, .f32⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x500000, .i32⟩
  | .hbm, ⟨3, _⟩ => ⟨S2x500000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S1x500000, .i32⟩
  | .hbm, ⟨30, _⟩ => ⟨S500000, .i32⟩
  | .hbm, ⟨31, _⟩ => ⟨S_, .f32⟩
  | .hbm, ⟨32, _⟩ => ⟨S50000x128, .f32⟩
  | .hbm, ⟨33, _⟩ => ⟨S500000x1, .i32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S128x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S1x500000, .i32⟩
  | .hbm, ⟨56, _⟩ => ⟨S500000, .i32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x128, .f32⟩
  | .hbm, ⟨66, _⟩ => ⟨S1x500000, .i32⟩
  | .hbm, ⟨67, _⟩ => ⟨S500000, .i32⟩
  | .hbm, ⟨68, _⟩ => ⟨S_, .f32⟩
  | .hbm, ⟨69, _⟩ => ⟨S50000x128, .f32⟩
  | .hbm, ⟨70, _⟩ => ⟨S500000x1, .i32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_1 : Ref sig .tc := ⟨.hbm, 57, rfl⟩
abbrev main_v34 : Ref sig .tc := ⟨.hbm, 58, rfl⟩
abbrev main_v35 : Ref sig .tc := ⟨.hbm, 59, rfl⟩
abbrev main_c_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_0_0 : S2x500000.Slices ![0, 0] S1x500000
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.FiniteInputs.lean ====
/-
  From the precondition to real numbers. The precondition is the conjunction, over every float argument, of
  "every entry has absolute value below +∞", each conjunct a reduction by `and` of the entrywise comparison.
  At the exact extended reals an entry `x` with `max x (-x) < ⊤` is neither infinity, hence a real number. Only three
  arguments are needed downstream: the node features and the two weight matrices whose products with them
  the kernel merges.
-/
import proofs.«403843_j40535901339973_3_alg».proof.Pre_finite_inputs
import Idealize.ShloMosaic.Lib.ReduceAll
import Idealize.ShloMosaic.Lib.ValueIdx

noncomputable section

namespace Cert.FiniteInputs

open Idealize.ShloMosaic Idealize.ShloMosaic.ValueIdx Cert.Pre_finite_inputs

/-- The rank-0 shape has one index. -/
instance : Subsingleton S_.Idx := ⟨fun a b => funext fun d => d.elim0⟩

/-- An extended real whose absolute value compares below the pattern of +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  induction x using EReal.rec with
  | bot => simp at hlt
  | top => simp at hlt
  | coe r => exact ⟨r, rfl⟩

variable [Facts]

/-- One conjunct read back: if the `and` over all entries of "`|x| < +∞`" is one, every entry of `x` is real. -/
theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant S_ .f32 0x7F800000#32)))
        (constantI S_ 1 1#1) hr hu ix0 = 1#1) (i : s.Idx) : ∃ r : ℝ, x i = r :=
  real_of_abs_lt_inf (x i) (Host.reduce_andi_all _ _ hr hu ix0 e i)

/-- A conjunction of two one-entry truth values that is one has both conjuncts one. -/
theorem both_of_and (a b : IVec S_ 1) (h : andi a b ix0 = 1#1) : a ix0 = 1#1 ∧ b ix0 = 1#1 :=
  IntOp.andi_eq_one.1 h

/-- Under the precondition the node features (argument 0) and the two weight matrices the kernel adds before
    its product (arguments 10 and 14) have only real entries: peel the conjunction from its last conjunct
    back to the first and read the three reductions that concern them. -/
theorem reals_of_pre (a0 : FVec Ideal S50000x128 .f32) (a1 : FVec Ideal S50000x128 .f32) (a2 : IVec S2x500000 32) (a3 : IVec S2x500000 32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32)
    (h : fn (F := Ideal) a0 a1 a2 a3 a4 a5 a6 a7 a8 a9 a10 a11 a12 a13 a14 a15 a16 a17 = fun _ => 1#1) :
    (∀ i, ∃ r : ℝ, a0 i = r) ∧ (∀ i, ∃ r : ℝ, a10 i = r) ∧ (∀ i, ∃ r : ℝ, a14 i = r) := by
  have h78 := congrFun h ix0
  dsimp only [fn, fn_part1, fn_part2, fn_part3, fn_part4] at h78
  obtain ⟨h73, -⟩ := both_of_and _ _ h78
  obtain ⟨h68, -⟩ := both_of_and _ _ h73
  obtain ⟨h63, -⟩ := both_of_and _ _ h68
  obtain ⟨h58, h62⟩ := both_of_and _ _ h63
  obtain ⟨h53, -⟩ := both_of_and _ _ h58
  obtain ⟨h48, -⟩ := both_of_and _ _ h53
  obtain ⟨h43, -⟩ := both_of_and _ _ h48
  obtain ⟨h38, h42⟩ := both_of_and _ _ h43
  obtain ⟨h33, -⟩ := both_of_and _ _ h38
  obtain ⟨h28, -⟩ := both_of_and _ _ h33
  obtain ⟨h23, -⟩ := both_of_and _ _ h28
  obtain ⟨h18, -⟩ := both_of_and _ _ h23
  obtain ⟨h13, -⟩ := both_of_and _ _ h18
  obtain ⟨h8, -⟩ := both_of_and _ _ h13
  obtain ⟨h3, -⟩ := both_of_and _ _ h8
  exact ⟨real_of_all a0 _ _ _ h3, real_of_all a10 _ _ _ h42, real_of_all a14 _ _ _ h62⟩

end Cert.FiniteInputs

end
-- ==== Proof.LayerSpec.lean ====
/-
  One message-passing layer followed by an output projection, as a function of whole arrays, index by index.

  Writing `A` for the aggregated messages (one row per node), `X` for the node features, `Wl, W0, W1, Wo`
  for four square weight matrices (stored output-row first, so a product with the transpose reads
  `W (k, p)`) and `bl, b0, b1, bo` for four bias rows, the hidden pre-activation of node `r` at feature `k` is

      (A·Wlᵀ)(r,k) + bl k + ((X·W0ᵀ)(r,k) + b0 k) + ((X·W1ᵀ)(r,k) + b1 k)                      (`hidden`)

  and the same number with the two products of `X` merged into one product with `W0 + W1` and the two
  biases added first is

      (A·Wlᵀ)(r,k) + bl k + (X·(W0 + W1)ᵀ)(r,k) + (b0 k + b1 k)                               (`hiddenMerged`).

  On the extended reals a product distributes over a sum only away from the infinities, so the two agree
  when `X`, `W0` and `W1` are finite (`hiddenMerged_eq_hidden`); `A` and the biases may be anything, since
  only commutativity and associativity of the sum touch them. The layer's result is the rectified hidden
  row times `Woᵀ` plus `bo` (`project`).
-/
import Idealize.ShloMosaic.PureOps.Ideal
import Idealize.ShloMosaic.Lib.ValueIdx

noncomputable section

open scoped BigOperators

namespace Cert.LayerSpec

open Idealize.ShloMosaic Idealize.ShloMosaic.ValueIdx

/-- Node-by-feature arrays, square weight matrices and bias rows, at their literal extents. -/
abbrev NodeArr : Type := (⟨2, ![50000, 128]⟩ : Shape).Idx → EReal
abbrev Weight : Type := (⟨2, ![128, 128]⟩ : Shape).Idx → EReal
abbrev Bias : Type := (⟨1, ![128]⟩ : Shape).Idx → EReal

/-- The hidden pre-activation with the three products kept apart, each with its own bias. -/
def hidden (A X : NodeArr) (Wl W0 W1 : Weight) (bl b0 b1 : Bias) (r : Fin 50000) (k : Fin 128) : EReal :=
  ((∑ p : Fin 128, A (ix2 r p) * Wl (ix2 k p)) + bl (ix1 k)
      + ((∑ p : Fin 128, X (ix2 r p) * W0 (ix2 k p)) + b0 (ix1 k)))
    + ((∑ p : Fin 128, X (ix2 r p) * W1 (ix2 k p)) + b1 (ix1 k))

/-- The hidden pre-activation with the two products of `X` merged into one. -/
def hiddenMerged (A X : NodeArr) (Wl W0 W1 : Weight) (bl b0 b1 : Bias) (r : Fin 50000) (k : Fin 128) : EReal :=
  ((∑ p : Fin 128, A (ix2 r p) * Wl (ix2 k p)) + bl (ix1 k)
      + ∑ p : Fin 128, X (ix2 r p) * (W0 (ix2 k p) + W1 (ix2 k p)))
    + (b0 (ix1 k) + b1 (ix1 k))

/-- The output projection of a rectified hidden array. -/
def project (h : Fin 50000 → Fin 128 → EReal) (Wo : Weight) (bo : Bias) : NodeArr :=
  fun i => (∑ k : Fin 128, max (h (i 0) k) 0 * Wo (ix2 (i 1) k)) + bo (ix1 (i 1))

/-- A finite extended real times a sum of two finite ones distributes. -/
theorem mul_add_of_real {x a b : EReal} (hx : ∃ r : ℝ, x = r) (ha : ∃ r : ℝ, a = r) (hb : ∃ r : ℝ, b = r) :
    x * (a + b) = x * a + x * b := by
  obtain ⟨x, rfl⟩ := hx
  obtain ⟨a, rfl⟩ := ha
  obtain ⟨b, rfl⟩ := hb
  rw [← EReal.coe_add, ← EReal.coe_mul, mul_add, EReal.coe_add, EReal.coe_mul, EReal.coe_mul]

/-- With finite features and finite weights the merged product is the sum of the two products, so the two
    hidden pre-activations are one number: the rest is a regrouping of a commutative sum. -/
theorem hiddenMerged_eq_hidden (A X : NodeArr) (Wl W0 W1 : Weight) (bl b0 b1 : Bias)
    (hX : ∀ i, ∃ r : ℝ, X i = r) (h0 : ∀ i, ∃ r : ℝ, W0 i = r) (h1 : ∀ i, ∃ r : ℝ, W1 i = r)
    (r : Fin 50000) (k : Fin 128) :
    hiddenMerged A X Wl W0 W1 bl b0 b1 r k = hidden A X Wl W0 W1 bl b0 b1 r k := by
  unfold hiddenMerged hidden
  have hsplit : (∑ p : Fin 128, X (ix2 r p) * (W0 (ix2 k p) + W1 (ix2 k p)))
      = (∑ p : Fin 128, X (ix2 r p) * W0 (ix2 k p)) + ∑ p : Fin 128, X (ix2 r p) * W1 (ix2 k p) := by
    rw [← Finset.sum_add_distrib]
    exact Finset.sum_congr rfl fun p _ => mul_add_of_real (hX _) (h0 _) (h1 _)
  rw [hsplit]
  abel

end Cert.LayerSpec

end
-- ==== Proof.ReferenceValue.lean ====
/-
  The reference's result, read index by index, is the layer specification.

  The reference forms the aggregated messages `A` (a gather of feature rows along the edges followed by a
  scatter-add into the destination rows; kept here as one unopened term of the features and the edge list),
  then three products with transposed weight matrices, each with its broadcast bias, summed in the order
  ((A·Wlᵀ + bl) + (X·W0ᵀ + b0)) + (X·W1ᵀ + b1), rectifies, and projects with Woᵀ and bo. Each product at
  (r, k) is a sum over the contracted feature p of the left operand at (r, p) times the transposed weight at
  (p, k), that is the weight itself at (k, p); each bias at (r, k) is the bias row at k.
-/
import proofs.«403843_j40535901339973_3_alg».proof.Proof.Gen.ReferenceIdeal.Read
import proofs.«403843_j40535901339973_3_alg».proof.Proof.LayerSpec

noncomputable section

open scoped BigOperators

namespace Cert.ReferenceIdeal.RefValue

open Cert.ReferenceIdeal Cert.ReferenceIdeal.Read Idealize.ShloMosaic Idealize.ShloMosaic.ValueIdx Cert.LayerSpec

/-- Two indices of a rank-2 shape with equal coordinates are equal; likewise at rank 1. -/
theorem idx2_ext {n0 n1 : Nat} {f g : (⟨2, ![n0, n1]⟩ : Shape).Idx} (h0 : (f 0).val = (g 0).val)
    (h1 : (f 1).val = (g 1).val) : f = g :=
  funext fun a => Fin.ext (by match a with | ⟨0, _⟩ => exact h0 | ⟨1, _⟩ => exact h1)
theorem idx1_ext {n0 : Nat} {f g : (⟨1, ![n0]⟩ : Shape).Idx} (h0 : (f 0).val = (g 0).val) : f = g :=
  funext fun a => Fin.ext (by match a with | ⟨0, _⟩ => exact h0)

/-- The hidden pre-activation stage of the reference at (r, c) is `hidden` of the aggregated messages, the
    features, the three weight matrices and the three biases. -/
theorem hidden_stage (x0 : (⟨S50000x128, .f32⟩ : BufTy).Contents (Elt Ideal)) (x3 : (⟨S2x500000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal)) (r : Fin 50000) (c : Fin 128) :
    val_main_v30 (F := Ideal) x0 x3 x10 x11 x12 x13 x14 x15 (ix2 r c)
      = hidden (val_main_v13 (F := Ideal) x0 x3) x0 x12 x10 x14 x13 x11 x15 r c := by
  have eL15 : ∀ p : Fin 128, lidx_main_v15 (ix2 r c) p = ix2 r p := fun p => idx2_ext rfl rfl
  have eR15 : ∀ p : Fin 128, idx_main_v14 (ridx_main_v15 (ix2 r c) p) = ix2 c p := fun p => idx2_ext rfl rfl
  have eB17 : idx_main_v16 (idx_main_v17 (ix2 r c)) = ix1 c := idx1_ext rfl
  have eL20 : ∀ p : Fin 128, lidx_main_v20 (ix2 r c) p = ix2 r p := fun p => idx2_ext rfl rfl
  have eR20 : ∀ p : Fin 128, idx_main_v19 (ridx_main_v20 (ix2 r c) p) = ix2 c p := fun p => idx2_ext rfl rfl
  have eB22 : idx_main_v21 (idx_main_v22 (ix2 r c)) = ix1 c := idx1_ext rfl
  have eL26 : ∀ p : Fin 128, lidx_main_v26 (ix2 r c) p = ix2 r p := fun p => idx2_ext rfl rfl
  have eR26 : ∀ p : Fin 128, idx_main_v25 (ridx_main_v26 (ix2 r c) p) = ix2 c p := fun p => idx2_ext rfl rfl
  have eB28 : idx_main_v27 (idx_main_v28 (ix2 r c)) = ix1 c := idx1_ext rfl
  rw [val_main_v30_apply, val_main_v24_apply, val_main_v18_apply, val_main_v15_apply, val_main_v17_apply,
    val_main_v16_apply, val_main_v23_apply, val_main_v20_apply, val_main_v22_apply, val_main_v21_apply,
    val_main_v29_apply, val_main_v26_apply, val_main_v28_apply, val_main_v27_apply]
  simp only [val_main_v14_apply, val_main_v19_apply, val_main_v25_apply, eL15, eR15, eB17, eL20, eR20, eB22,
    eL26, eR26, eB28, Ideal.addf_def]
  rfl

/-- The reference's result is the projection of its rectified hidden stage. -/
theorem result_eq_spec (x0 : (⟨S50000x128, .f32⟩ : BufTy).Contents (Elt Ideal)) (x3 : (⟨S2x500000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v68 (F := Ideal) x0 x3 x10 x11 x12 x13 x14 x15 x16 x17
      = project (hidden (val_main_v13 (F := Ideal) x0 x3) x0 x12 x10 x14 x13 x11 x15) x16 x17 := by
  funext i
  obtain ⟨r, c, rfl⟩ : ∃ (r : Fin 50000) (c : Fin 128), i = ix2 r c := ⟨i 0, i 1, eq_ix2 i⟩
  have eL : ∀ k : Fin 128, lidx_main_v65 (ix2 r c) k = ix2 r k := fun k => idx2_ext rfl rfl
  have eR : ∀ k : Fin 128, idx_main_v64 (ridx_main_v65 (ix2 r c) k) = ix2 c k := fun k => idx2_ext rfl rfl
  have eB : idx_main_v66 (idx_main_v67 (ix2 r c)) = ix1 c := idx1_ext rfl
  have e0 : ∀ j : S50000x128.Idx, val_main_call0_v0 (F := Ideal) j = 0 := fun j => by
    rw [val_main_call0_v0_apply, val_main_call0_cst_apply]
    exact Ideal.ofBits_zero_f32
  rw [val_main_v68_apply, val_main_v65_apply, val_main_v67_apply, val_main_v66_apply, eB, Ideal.addf_def]
  unfold project
  refine congrArg₂ (· + ·) (Finset.sum_congr rfl fun k _ => ?_) rfl
  rw [val_main_v64_apply, eR k, eL k, val_main_v31_apply, hidden_stage, e0, Ideal.maximumf_def]

end Cert.ReferenceIdeal.RefValue

end
-- ==== Proof.KernelOperands.lean ====
/-
  What the kernel's region finds in its operand arrays, and what each window's block holds at a grid point.

  Before the region the host forms: the aggregated messages (the same gather along the edges and scatter-add
  into destination rows as the reference's, with a narrowing of the features before the gather and a widening
  after it, both the identity on exact values); the three weight matrices transposed (the middle one the
  transpose of the SUM of two weight matrices); and the three bias rows as 1×128 arrays (the middle one the
  sum of two biases). The grid has ten points; at point t the two row windows hold rows 5000·t … 5000·t + 4999
  of their arrays and the six small windows hold their whole arrays.
-/
import proofs.«403843_j40535901339973_3_alg».proof.Proof.Gen.KernelIdeal.Frame
import proofs.«403843_j40535901339973_3_alg».proof.Proof.Gen.ReferenceIdeal.Read
import Idealize.ShloMosaic.Lib.Pipeline.Value
import Idealize.ShloMosaic.Lib.ValueIdx
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays, each at its literal type -/

/-- The node features, the edge list, and the weight matrices and biases the result depends on. -/
abbrev feat (c : Dev nD) : S50000x128.Idx → EReal := m ((c.tc : Thread nD τ).loc main_arg0)
abbrev edges (c : Dev nD) : IVec S2x500000 32 := m ((c.tc : Thread nD τ).loc main_arg3)
abbrev w0 (c : Dev nD) : S128x128.Idx → EReal := m ((c.tc : Thread nD τ).loc main_arg10)
abbrev b0 (c : Dev nD) : S128.Idx → EReal := m ((c.tc : Thread nD τ).loc main_arg11)
abbrev wl (c : Dev nD) : S128x128.Idx → EReal := m ((c.tc : Thread nD τ).loc main_arg12)
abbrev bl (c : Dev nD) : S128.Idx → EReal := m ((c.tc : Thread nD τ).loc main_arg13)
abbrev w1 (c : Dev nD) : S128x128.Idx → EReal := m ((c.tc : Thread nD τ).loc main_arg14)
abbrev b1 (c : Dev nD) : S128.Idx → EReal := m ((c.tc : Thread nD τ).loc main_arg15)
abbrev wo (c : Dev nD) : S128x128.Idx → EReal := m ((c.tc : Thread nD τ).loc main_arg16)
abbrev bo (c : Dev nD) : S128.Idx → EReal := m ((c.tc : Thread nD τ).loc main_arg17)
/-- The seven arrays the host writes before the region and the region's windows read. -/
abbrev agg (c : Dev nD) : S50000x128.Idx → EReal := V m c main_v15
abbrev wlT (c : Dev nD) : S128x128.Idx → EReal := V m c main_v17
abbrev w01T (c : Dev nD) : S128x128.Idx → EReal := V m c main_v20
abbrev woT (c : Dev nD) : S128x128.Idx → EReal := V m c main_v22
abbrev blRow (c : Dev nD) : S1x128.Idx → EReal := V m c main_v23
abbrev b01Row (c : Dev nD) : S1x128.Idx → EReal := V m c main_v25
abbrev boRow (c : Dev nD) : S1x128.Idx → EReal := V m c main_v26

/-! ## The operand arrays at region entry -/

/-- The aggregated messages the region reads are the reference's aggregation stage of the same features and
    edge list: the operations agree one for one once the two changes of float format are read as the identity. -/
theorem agg_eq_ref (c : Dev nD) :
    agg m c = Cert.ReferenceIdeal.Read.val_main_v13 (F := Ideal) (feat m c) (edges m c) := by
  show V m c main_v15 = _
  dsimp only [V, hostOps0]
  after_results_simp <;> rfl

/-- A transposed matrix (narrowed to the product's input format, the identity on exact values) at (p, k) is the
    matrix at (k, p). -/
theorem transposed_apply (w : S128x128.Idx → EReal) (p k : Fin 128) :
    truncf (F := Ideal) .bf16 (transpose S128x128 [1, 0] w transposes_S128x128_S128x128_1_0) bitsLt_bf16_f32 (ix2 p k)
      = w (ix2 k p) := by
  rw [truncf_apply]
  exact transpose_apply [1, 0] w transposes_S128x128_S128x128_1_0 (ix2 p k) (ix2 k p) (fun b => match b with
    | ⟨0, _⟩ => rfl
    | ⟨1, _⟩ => rfl)

/-- The first weight window's array at (p, k) is weight matrix `wl` at (k, p). -/
theorem wlT_apply (c : Dev nD) (p k : Fin 128) : wlT m c (ix2 p k) = wl m c (ix2 k p) := by
  have e : wlT m c
      = truncf (F := Ideal) .bf16 (transpose S128x128 [1, 0] (wl m c) transposes_S128x128_S128x128_1_0) bitsLt_bf16_f32 := by
    show V m c main_v17 = _
    dsimp only [V, hostOps0]
    after_results_simp <;> rfl
  rw [e]
  exact transposed_apply (wl m c) p k

/-- The second weight window's array at (p, k) is the sum of `w0` and `w1` at (k, p). -/
theorem w01T_apply (c : Dev nD) (p k : Fin 128) :
    w01T m c (ix2 p k) = w0 m c (ix2 k p) + w1 m c (ix2 k p) := by
  have e : w01T m c
      = truncf (F := Ideal) .bf16 (transpose S128x128 [1, 0] (addf (F := Ideal) (φ := .f32) (w0 m c) (w1 m c)) transposes_S128x128_S128x128_1_0) bitsLt_bf16_f32 := by
    show V m c main_v20 = _
    dsimp only [V, hostOps0]
    after_results_simp <;> rfl
  rw [e]
  exact transposed_apply _ p k

/-- The third weight window's array at (k, j) is `wo` at (j, k). -/
theorem woT_apply (c : Dev nD) (k j : Fin 128) : woT m c (ix2 k j) = wo m c (ix2 j k) := by
  have e : woT m c
      = truncf (F := Ideal) .bf16 (transpose S128x128 [1, 0] (wo m c) transposes_S128x128_S128x128_1_0) bitsLt_bf16_f32 := by
    show V m c main_v22 = _
    dsimp only [V, hostOps0]
    after_results_simp <;> rfl
  rw [e]
  exact transposed_apply (wo m c) k j

/-- A bias reshaped to one row, read at (0, k), is the bias at k. -/
theorem row_of_bias (b : S128.Idx → EReal) (h : S128.ShapeCasts S1x128) (k : Fin 128) :
    shapeCast S1x128 b h (ix2 0 k) = b (ix1 k) :=
  shapeCast_apply b h (ix2 0 k) (ix1 k)
    (by rewrite [Shape.rowMajor_val_two, Shape.rowMajor_val_one]; show k.val = 0 * 128 + k.val; omega)

/-- The three bias windows' arrays at (0, k). -/
theorem blRow_apply (c : Dev nD) (k : Fin 128) : blRow m c (ix2 0 k) = bl m c (ix1 k) := by
  have e : blRow m c = shapeCast S1x128 (bl m c) shapeCasts_S128_S1x128 := by
    show V m c main_v23 = _
    dsimp only [V, hostOps0]
    after_results_simp <;> rfl
  rw [e]
  exact row_of_bias _ _ k
theorem b01Row_apply (c : Dev nD) (k : Fin 128) : b01Row m c (ix2 0 k) = b0 m c (ix1 k) + b1 m c (ix1 k) := by
  have e : b01Row m c = shapeCast S1x128 (addf (F := Ideal) (φ := .f32) (b0 m c) (b1 m c)) shapeCasts_S128_S1x128 := by
    show V m c main_v25 = _
    dsimp only [V, hostOps0]
    after_results_simp <;> rfl
  rw [e]
  exact row_of_bias _ _ k
theorem boRow_apply (c : Dev nD) (k : Fin 128) : boRow m c (ix2 0 k) = bo m c (ix1 k) := by
  have e : boRow m c = shapeCast S1x128 (bo m c) shapeCasts_S128_S1x128 := by
    show V m c main_v26 = _
    dsimp only [V, hostOps0]
    after_results_simp <;> rfl
  rw [e]
  exact row_of_bias _ _ k

/-! ## The windows' blocks -/

/-- The nine index maps over the ten grid points: the two row windows and the output window are at block
    (t, 0), the six small windows always at block (0, 0). -/
theorem index_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-- The eight input blocks at a grid point, each at its literal type. -/
abbrev aggBlk (c : Dev nD) (t : Fin cfg0.N) : FVec Ideal S5000x128 .f32 := iblk m c 0 t
abbrev featBlk (c : Dev nD) (t : Fin cfg0.N) : FVec Ideal S5000x128 .f32 := iblk m c 1 t
abbrev wlBlk (c : Dev nD) (t : Fin cfg0.N) : FVec Ideal S128x128 .bf16 := iblk m c 2 t
abbrev blBlk (c : Dev nD) (t : Fin cfg0.N) : FVec Ideal S1x128 .f32 := iblk m c 3 t
abbrev w01Blk (c : Dev nD) (t : Fin cfg0.N) : FVec Ideal S128x128 .bf16 := iblk m c 4 t
abbrev b01Blk (c : Dev nD) (t : Fin cfg0.N) : FVec Ideal S1x128 .f32 := iblk m c 5 t
abbrev woBlk (c : Dev nD) (t : Fin cfg0.N) : FVec Ideal S128x128 .bf16 := iblk m c 6 t
abbrev boBlk (c : Dev nD) (t : Fin cfg0.N) : FVec Ideal S1x128 .f32 := iblk m c 7 t

/-- Row r of a row window's block at point t is row 5000·t + r of its array. -/
theorem aggBlk_apply (c : Dev nD) (t : Fin cfg0.N) (r : Fin 5000) (p : Fin 128) (R : Fin 50000)
    (hR : R.val = t.val * 5000 + r.val) : aggBlk m c t (ix2 r p) = agg m c (ix2 R p) := by
  have h := index_facts t
  show iblk m c 0 t (ix2 r p) = _
  unfold iblk
  rw [View.read_apply]
  show V m c main_v15 _ = V m c main_v15 _
  congr 1
  funext a
  apply Fin.ext
  match a with
  | ⟨0, _⟩ => show win0_0.index t 0 * 5000 + 1 * r.val = R.val; rw [h.1, hR]; omega
  | ⟨1, _⟩ => show win0_0.index t 1 * 128 + 1 * p.val = p.val; rw [h.2.1]; omega
theorem featBlk_apply (c : Dev nD) (t : Fin cfg0.N) (r : Fin 5000) (p : Fin 128) (R : Fin 50000)
    (hR : R.val = t.val * 5000 + r.val) : featBlk m c t (ix2 r p) = feat m c (ix2 R p) := by
  have h := index_facts t
  show iblk m c 1 t (ix2 r p) = _
  unfold iblk
  rw [View.read_apply]
  show V m c main_arg0 _ = m ((c.tc : Thread nD τ).loc main_arg0) _
  rw [V_main_arg0]
  congr 1
  funext a
  apply Fin.ext
  match a with
  | ⟨0, _⟩ => show win0_1.index t 0 * 5000 + 1 * r.val = R.val; rw [h.2.2.1, hR]; omega
  | ⟨1, _⟩ => show win0_1.index t 1 * 128 + 1 * p.val = p.val; rw [h.2.2.2.1]; omega

/-- A small window's block is its whole array at every point. -/
theorem wlBlk_apply (c : Dev nD) (t : Fin cfg0.N) (p : Fin 128) (k : Fin 128) :
    wlBlk m c t (ix2 p k) = wlT m c (ix2 p k) := by
  have h := index_facts t
  show iblk m c 2 t (ix2 p k) = _
  unfold iblk
  rw [View.read_apply]
  show V m c main_v17 _ = V m c main_v17 _
  congr 1
  funext a
  apply Fin.ext
  match a with
  | ⟨0, _⟩ => show win0_2.index t 0 * 128 + 1 * p.val = p.val; rw [h.2.2.2.2.1]; omega
  | ⟨1, _⟩ => show win0_2.index t 1 * 128 + 1 * k.val = k.val; rw [h.2.2.2.2.2.1]; omega
theorem blBlk_apply (c : Dev nD) (t : Fin cfg0.N) (p : Fin 1) (k : Fin 128) :
    blBlk m c t (ix2 p k) = blRow m c (ix2 p k) := by
  have h := index_facts t
  show iblk m c 3 t (ix2 p k) = _
  unfold iblk
  rw [View.read_apply]
  show V m c main_v23 _ = V m c main_v23 _
  congr 1
  funext a
  apply Fin.ext
  match a with
  | ⟨0, _⟩ => show win0_3.index t 0 * 1 + 1 * p.val = p.val; rw [h.2.2.2.2.2.2.1]; omega
  | ⟨1, _⟩ => show win0_3.index t 1 * 128 + 1 * k.val = k.val; rw [h.2.2.2.2.2.2.2.1]; omega
theorem w01Blk_apply (c : Dev nD) (t : Fin cfg0.N) (p : Fin 128) (k : Fin 128) :
    w01Blk m c t (ix2 p k) = w01T m c (ix2 p k) := by
  have h := index_facts t
  show iblk m c 4 t (ix2 p k) = _
  unfold iblk
  rw [View.read_apply]
  show V m c main_v20 _ = V m c main_v20 _
  congr 1
  funext a
  apply Fin.ext
  match a with
  | ⟨0, _⟩ => show win0_4.index t 0 * 128 + 1 * p.val = p.val; rw [h.2.2.2.2.2.2.2.2.1]; omega
  | ⟨1, _⟩ => show win0_4.index t 1 * 128 + 1 * k.val = k.val; rw [h.2.2.2.2.2.2.2.2.2.1]; omega
theorem b01Blk_apply (c : Dev nD) (t : Fin cfg0.N) (p : Fin 1) (k : Fin 128) :
    b01Blk m c t (ix2 p k) = b01Row m c (ix2 p k) := by
  have h := index_facts t
  show iblk m c 5 t (ix2 p k) = _
  unfold iblk
  rw [View.read_apply]
  show V m c main_v25 _ = V m c main_v25 _
  congr 1
  funext a
  apply Fin.ext
  match a with
  | ⟨0, _⟩ => show win0_5.index t 0 * 1 + 1 * p.val = p.val; rw [h.2.2.2.2.2.2.2.2.2.2.1]; omega
  | ⟨1, _⟩ => show win0_5.index t 1 * 128 + 1 * k.val = k.val; rw [h.2.2.2.2.2.2.2.2.2.2.2.1]; omega
theorem woBlk_apply (c : Dev nD) (t : Fin cfg0.N) (p : Fin 128) (k : Fin 128) :
    woBlk m c t (ix2 p k) = woT m c (ix2 p k) := by
  have h := index_facts t
  show iblk m c 6 t (ix2 p k) = _
  unfold iblk
  rw [View.read_apply]
  show V m c main_v22 _ = V m c main_v22 _
  congr 1
  funext a
  apply Fin.ext
  match a with
  | ⟨0, _⟩ => show win0_6.index t 0 * 128 + 1 * p.val = p.val; rw [h.2.2.2.2.2.2.2.2.2.2.2.2.1]; omega
  | ⟨1, _⟩ => show win0_6.index t 1 * 128 + 1 * k.val = k.val; rw [h.2.2.2.2.2.2.2.2.2.2.2.2.2.1]; omega
theorem boBlk_apply (c : Dev nD) (t : Fin cfg0.N) (p : Fin 1) (k : Fin 128) :
    boBlk m c t (ix2 p k) = boRow m c (ix2 p k) := by
  have h := index_facts t
  show iblk m c 7 t (ix2 p k) = _
  unfold iblk
  rw [View.read_apply]
  show V m c main_v26 _ = V m c main_v26 _
  congr 1
  funext a
  apply Fin.ext
  match a with
  | ⟨0, _⟩ => show win0_7.index t 0 * 1 + 1 * p.val = p.val; rw [h.2.2.2.2.2.2.2.2.2.2.2.2.2.2.1]; omega
  | ⟨1, _⟩ => show win0_7.index t 1 * 128 + 1 * k.val = k.val; rw [h.2.2.2.2.2.2.2.2.2.2.2.2.2.2.2.1]; omega

end Cert.KernelIdeal.Operands

end
-- ==== Proof.KernelBody.lean ====
/-
  The kernel body's stored value, read at one entry of the output block.

  The body takes a block of aggregated messages `a` and the block of node features `x` at the same rows, three
  weight matrices already transposed (`wl`, `w01`, `wo`: entry (p, k) multiplies input feature p into output
  feature k) and three bias rows. Every change of float format is the identity on the exact values and every
  same-shape cast is the identity, so at row r and column c the stored value is

      ∑ k, max (((∑ p, a(r,p)·wl(p,k)) + bl(0,k) + ∑ p, x(r,p)·w01(p,k)) + b01(0,k)) 0 · wo(k,c)  +  bo(0,c):

  each matrix product into a zero accumulator is the plain sum over the contracted feature, and a bias row
  broadcast down the rows is read at its one row.
-/
import proofs.«403843_j40535901339973_3_alg».proof.Proof.Gen.KernelIdeal.Skeleton
import proofs.«403843_j40535901339973_3_alg».proof.Proof.LayerSpec
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.LayerSpec

/-- The operand indices of the block product, axis by axis: the left operand is read at (row, contracted), the
    right at (contracted, column). -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator at (r, c): the sum over the contracted feature. -/
theorem block_matmul_apply {φ₁ φ₂ : FTy} (lhs : FVec Ideal S5000x128 φ₁) (rhs : FVec Ideal S128x128 φ₂)
    (r : Fin 5000) (c : Fin 128) :
    FloatOps.matmul dot_S5000x128_S128x128_S5000x128_1_0_0_1_n_n none lhs rhs (constant S5000x128 .f32 0x00000000#32) (ix2 r c)
      = ∑ p : Fin 128, lhs (ix2 r p) * rhs (ix2 p c) := by
  rw [Ideal.matmul_constant_zero_apply, ← Equiv.sum_comp (contrEquiv1 dot_S5000x128_S128x128_S5000x128_1_0_0_1_n_n 128 rfl rfl).symm]
  refine Finset.sum_congr rfl fun p _ => ?_
  have hk := contrEquiv1_symm_val dot_S5000x128_S128x128_S5000x128_1_0_0_1_n_n 128 rfl rfl p
  have el : dot_S5000x128_S128x128_S5000x128_1_0_0_1_n_n.lhsIdx (ix2 r c) ((contrEquiv1 dot_S5000x128_S128x128_S5000x128_1_0_0_1_n_n 128 rfl rfl).symm p) = ix2 r p := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r c) ((contrEquiv1 dot_S5000x128_S128x128_S5000x128_1_0_0_1_n_n 128 rfl rfl).symm p) = ix2 p c := funext fun a => Fin.ext (by
    match a with
    | ⟨0, _⟩ => exact (rhs_axis0 _ _).trans hk
    | ⟨1, _⟩ => exact rhs_axis1 _ _)
  rw [el, er]

/-- A bias row broadcast down the rows of the block, read at (r, c), is the row at column c. -/
theorem bias_row_apply (b : FVec Ideal S1x128 .f32) (hb : S1x128.Broadcasts S5000x128)
    (r : Fin 5000) (c : Fin 128) :
    broadcastTo S5000x128 b hb (ix2 r c) = b (ix2 0 c) := by
  exact broadcastTo_apply b hb (ix2 r c) (ix2 0 c) (fun a => match a with
    | ⟨0, _⟩ => by show 0 = if (1 : Nat) = 1 then 0 else _; rw [if_pos rfl]
    | ⟨1, _⟩ => by show c.val = if (128 : Nat) = 1 then 0 else c.val; rw [if_neg (by decide)])

/-- The zero the rectifier compares with. -/
theorem scalar_zero : (Scalar.ofBits (F := Ideal) .f32 0x00000000#32 : EReal) = 0 := Ideal.ofBits_zero_f32

/-- The stored value at (r, c). -/
theorem body_apply (a x : FVec Ideal S5000x128 .f32) (wl w01 wo : FVec Ideal S128x128 .bf16)
    (bl b01 bo : FVec Ideal S1x128 .f32) (r : Fin 5000) (c : Fin 128) :
    k0_pay1 (F := Ideal) a x wl w01 wo bl b01 bo (ix2 r c)
      = (∑ k : Fin 128, max (((∑ p : Fin 128, a (ix2 r p) * wl (ix2 p k)) + bl (ix2 0 k)
            + ∑ p : Fin 128, x (ix2 r p) * w01 (ix2 p k)) + b01 (ix2 0 k)) 0 * wo (ix2 k c)) + bo (ix2 0 c) := by
  unfold k0_pay1
  simp only [matmul, addf_apply, block_matmul_apply, bias_row_apply, truncf_apply, maximumf_apply, broadcast_apply,
    shapeCast_self, scalar_zero]

/-- The stored value is the specification's entry. Suppose the two row blocks hold rows `off + r` of the
    aggregated messages `A` and of the features `X`; the three matrices the body multiplies by are the
    transposes of `Wl`, of `W0 + W1` and of `Wo`; and the three bias rows are `bl`, `b0 + b1` and `bo`. Then at
    entry y of the block, which is entry i of the array with `i 0 = off + y 0` and `i 1 = y 1`, the body stores the
    projection of the rectified merged hidden row. -/
theorem stored_eq_spec (A X : NodeArr) (Wl W0 W1 Wo : Weight) (bl b0 b1 bo : Bias)
    (a x : FVec Ideal S5000x128 .f32) (wl w01 wo : FVec Ideal S128x128 .bf16) (bl' b01' bo' : FVec Ideal S1x128 .f32)
    (off : Nat)
    (ha : ∀ (r : Fin 5000) (p : Fin 128) (R : Fin 50000), R.val = off + r.val → a (ix2 r p) = A (ix2 R p))
    (hx : ∀ (r : Fin 5000) (p : Fin 128) (R : Fin 50000), R.val = off + r.val → x (ix2 r p) = X (ix2 R p))
    (hwl : ∀ p k : Fin 128, wl (ix2 p k) = Wl (ix2 k p))
    (hw01 : ∀ p k : Fin 128, w01 (ix2 p k) = W0 (ix2 k p) + W1 (ix2 k p))
    (hwo : ∀ k j : Fin 128, wo (ix2 k j) = Wo (ix2 j k))
    (hbl : ∀ k : Fin 128, bl' (ix2 0 k) = bl (ix1 k))
    (hb01 : ∀ k : Fin 128, b01' (ix2 0 k) = b0 (ix1 k) + b1 (ix1 k))
    (hbo : ∀ j : Fin 128, bo' (ix2 0 j) = bo (ix1 j))
    (y : S5000x128.Idx) (i : S50000x128.Idx) (h0 : (i 0).val = off + (y 0).val) (h1 : (i 1).val = (y 1).val) :
    k0_pay1 (F := Ideal) a x wl w01 wo bl' b01' bo' y
      = project (hiddenMerged A X Wl W0 W1 bl b0 b1) Wo bo i := by
  obtain ⟨r, q, rfl⟩ : ∃ (r : Fin 5000) (q : Fin 128), y = ix2 r q := ⟨y 0, y 1, eq_ix2 y⟩
  obtain ⟨R, Q, rfl⟩ : ∃ (R : Fin 50000) (Q : Fin 128), i = ix2 R Q := ⟨i 0, i 1, eq_ix2 i⟩
  obtain rfl : Q = q := Fin.ext h1
  have ha' : ∀ p : Fin 128, a (ix2 r p) = A (ix2 R p) := fun p => ha r p R h0
  have hx' : ∀ p : Fin 128, x (ix2 r p) = X (ix2 R p) := fun p => hx r p R h0
  rw [body_apply]
  unfold project hiddenMerged
  simp only [ha', hx', hwl, hw01, hwo, hbl, hb01, hbo]

end Cert.KernelIdeal.BodyValue

end
-- ==== Proof.KernelArray.lean ====
/-
  From the blocks the grid points write back to the whole result array, and the kernel's run re-posted.

  Point t writes back the block of rows 5000·t … 5000·t + 4999. What the body leaves there is, entry by entry,
  the layer specification (merged form) of the operand arrays: the row blocks are those rows of the aggregated
  messages and of the features, the small windows are whole arrays whose entries are the transposed weights and
  the bias rows. The ten blocks tile the 50000 rows (row R lies in the block of point R / 5000), so the array
  after the run is the specification everywhere.
-/
import proofs.«403843_j40535901339973_3_alg».proof.Proof.Gen.KernelIdeal.Value
import proofs.«403843_j40535901339973_3_alg».proof.Proof.KernelOperands
import proofs.«403843_j40535901339973_3_alg».proof.Proof.KernelBody

noncomputable section

namespace Cert.KernelIdeal.ArrayValue

open Cert.KernelIdeal Cert.KernelIdeal.Gen Cert.KernelIdeal.Value Cert.KernelIdeal.Operands Cert.KernelIdeal.BodyValue
open Idealize.ShloMosaic Idealize.ShloMosaic.TcCoe Idealize.SL.Sem Idealize.ShloMosaic.ValueIdx Cert.LayerSpec
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer's result in the kernel's grouping: the projection of the rectified merged hidden rows. -/
abbrev result (c : Dev nD) : S50000x128.Idx → EReal :=
  project (hiddenMerged (agg m c) (feat m c) (wl m c) (w0 m c) (w1 m c) (bl m c) (b0 m c) (b1 m c)) (wo m c) (bo m c)

/-- What point t writes back is block t of `result`. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero zero_offsets]
  simp only [View.ld_unit_zero (S := S5000x128) zero_offsets, View.ld_unit_zero (S := S128x128) zero_offsets,
    View.ld_unit_zero (S := S1x128) zero_offsets]
  have h := index_facts t
  funext y
  show k0_pay1 (F := Ideal) (aggBlk m c t) (featBlk m c t) (wlBlk m c t) (w01Blk m c t) (woBlk m c t) (blBlk m c t)
      (b01Blk m c t) (boBlk m c t) y = result m c (((cfg0.win 8).blk t).view.emb y)
  exact stored_eq_spec (agg m c) (feat m c) (wl m c) (w0 m c) (w1 m c) (wo m c) (bl m c) (b0 m c) (b1 m c) (bo m c)
    (aggBlk m c t) (featBlk m c t) (wlBlk m c t) (w01Blk m c t) (woBlk m c t) (blBlk m c t) (b01Blk m c t) (boBlk m c t)
    (t.val * 5000)
    (fun r p R hR => aggBlk_apply m c t r p R hR)
    (fun r p R hR => featBlk_apply m c t r p R hR)
    (fun p k => (wlBlk_apply m c t p k).trans (wlT_apply m c p k))
    (fun p k => (w01Blk_apply m c t p k).trans (w01T_apply m c p k))
    (fun k j => (woBlk_apply m c t k j).trans (woT_apply m c k j))
    (fun k => (blBlk_apply m c t 0 k).trans (blRow_apply m c k))
    (fun k => (b01Blk_apply m c t 0 k).trans (b01Row_apply m c k))
    (fun j => (boBlk_apply m c t 0 j).trans (boRow_apply m c j))
    y (((cfg0.win 8).blk t).view.emb y)
    (by show win0_8.index t 0 * 5000 + 1 * (y 0).val = t.val * 5000 + (y 0).val; rw [h.2.2.2.2.2.2.2.2.2.2.2.2.2.2.2.2.1]; omega)
    (by show win0_8.index t 1 * 128 + 1 * (y 1).val = (y 1).val; rw [h.2.2.2.2.2.2.2.2.2.2.2.2.2.2.2.2.2]; omega)

/-- An index of the result array is in point t's block iff each coordinate is in the block's range. -/
theorem mem_block (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v27).slice (win0_8.rect t)).set ↔ _
  rw [View.set_slice_whole, Rect.mem_set_unit]
  exact Iff.rfl

/-- Every index of the result array is in the block of the point that owns its row. -/
theorem covered (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  have hlt : (i 0).val / 5000 < cfg0.N := by rw [hN]; omega
  have h := index_facts ⟨(i 0).val / 5000, hlt⟩
  refine ⟨⟨(i 0).val / 5000, hlt⟩, flush0_8 _, ?_⟩
  rw [mem_block]
  intro a
  match a with
  | ⟨0, _⟩ =>
    show win0_8.index ⟨(i 0).val / 5000, hlt⟩ 0 * 5000 ≤ (i 0).val
      ∧ (i 0).val < win0_8.index ⟨(i 0).val / 5000, hlt⟩ 0 * 5000 + 5000
    rw [h.2.2.2.2.2.2.2.2.2.2.2.2.2.2.2.2.1]
    show (i 0).val / 5000 * 5000 ≤ (i 0).val ∧ (i 0).val < (i 0).val / 5000 * 5000 + 5000
    omega
  | ⟨1, _⟩ =>
    show win0_8.index ⟨(i 0).val / 5000, hlt⟩ 1 * 128 ≤ (i 1).val
      ∧ (i 1).val < win0_8.index ⟨(i 0).val / 5000, hlt⟩ 1 * 128 + 128
    rw [h.2.2.2.2.2.2.2.2.2.2.2.2.2.2.2.2.2]
    omega

/-- The result array after the run is `result`. -/
theorem final (c : Dev nD) : (dats m 0 c).arrAt 8 cfg0.N = result m c :=
  (dats m 0 c).arrAt_eq_of_cover 8 (result m c) (fun t _ => flushed_eq m c t) covered

/-- The kernel's run with the result array at `result`, the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Value.run_blocks m ρ)

end Cert.KernelIdeal.ArrayValue

end
-- ==== Proof.lean ====
/-
  The certificate: a message-passing layer with an output projection, fused on the kernel's side.

  Both programs aggregate feature rows along the edges (gather by source, scatter-add by destination) into
  `A`, and both end with  relu(H)·Woᵀ + bo.  The reference forms the hidden rows as
      H = ((A·Wlᵀ + bl) + (X·W0ᵀ + b0)) + (X·W1ᵀ + b1),
  the kernel as
      H = ((A·Wlᵀ + bl) + X·(W0 + W1)ᵀ) + (b0 + b1),
  one matrix product fewer, computed block of rows by block of rows. Over the extended reals the two agree
  because the features and the two merged weight matrices are finite under the precondition, so the product
  distributes over their sum; everything else is a regrouping of a commutative sum. The aggregation itself is
  never opened: the two programs apply the same operations to the same arguments.

  The frames of the two kernel programs are the generated ones; the reference's frame is its generated run with
  the result forgotten; the idealization ledger is empty.
-/
import proofs.«403843_j40535901339973_3_alg».proof.Defs
import proofs.«403843_j40535901339973_3_alg».proof.Proof.Gen.Kernel
import proofs.«403843_j40535901339973_3_alg».proof.Proof.Gen.Kernel.Frame
import proofs.«403843_j40535901339973_3_alg».proof.Proof.Gen.KernelIdeal
import proofs.«403843_j40535901339973_3_alg».proof.Proof.Gen.KernelIdeal.Frame
import proofs.«403843_j40535901339973_3_alg».proof.Proof.Gen.ReferenceIdeal
import proofs.«403843_j40535901339973_3_alg».proof.Proof.Gen.ReferenceIdeal.Run
import proofs.«403843_j40535901339973_3_alg».proof.Proof.Gen.Pre_finite_inputs
import proofs.«403843_j40535901339973_3_alg».proof.Proof.FiniteInputs
import proofs.«403843_j40535901339973_3_alg».proof.Proof.ReferenceValue
import proofs.«403843_j40535901339973_3_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the projection of the rectified hidden rows: the kernel's run gives
    it in the merged grouping, the reference's in the separate one, and under finite features and weights the
    two hidden rows are equal. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, -, -, e3, -, -, -, -, -, -, e10, e11, e12, e13, e14, e15, e16, e17⟩ := hagree c
  obtain ⟨hX, hW0, hW1⟩ := Cert.FiniteInputs.reals_of_pre _ _ _ _ _ _ _ _ _ _ _ _ _ _ _ _ _ _ (hpre c)
  rw [Cert.ReferenceIdeal.Read.val_main_v68_eq, Cert.ReferenceIdeal.RefValue.result_eq_spec,
    e0, e3, e10, e11, e12, e13, e14, e15, e16, e17]
  show Cert.LayerSpec.project (Cert.LayerSpec.hidden
      (Cert.ReferenceIdeal.Read.val_main_v13 (F := Ideal) (Cert.KernelIdeal.Operands.feat m c) (Cert.KernelIdeal.Operands.edges m c))
      (Cert.KernelIdeal.Operands.feat m c) (Cert.KernelIdeal.Operands.wl m c) (Cert.KernelIdeal.Operands.w0 m c)
      (Cert.KernelIdeal.Operands.w1 m c) (Cert.KernelIdeal.Operands.bl m c) (Cert.KernelIdeal.Operands.b0 m c)
      (Cert.KernelIdeal.Operands.b1 m c)) (Cert.KernelIdeal.Operands.wo m c) (Cert.KernelIdeal.Operands.bo m c)
    = Cert.KernelIdeal.ArrayValue.result m c
  rw [← Cert.KernelIdeal.Operands.agg_eq_ref m c]
  exact congrArg (fun h => Cert.LayerSpec.project h (Cert.KernelIdeal.Operands.wo m c) (Cert.KernelIdeal.Operands.bo m c))
    (funext fun r => funext fun k => (Cert.LayerSpec.hiddenMerged_eq_hidden _ _ _ _ _ _ _ _ hX hW0 hW1 r k).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
